-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S16x1024x1024 : Shape := ⟨3, ![16, 1024, 1024]⟩
abbrev S16 : Shape := ⟨1, ![16]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_

variable [Facts]

def fn {F : FTy → Type} [FloatOps F] (main_arg0 : FVec F S65536x1024 .f32) (main_arg1 : FVec F S16x1024x1024 .f32) (main_arg2 : IVec S16 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S65536x1024 : Shape := ⟨2, ![65536, 1024]⟩
abbrev S16x1024x1024 : Shape := ⟨3, ![16, 1024, 1024]⟩
abbrev S16 : Shape := ⟨1, ![16]⟩
abbrev S65536x512 : Shape := ⟨2, ![65536, 512]⟩
abbrev S1024x1024 : Shape := ⟨2, ![1024, 1024]⟩
abbrev S1x1024x1024 : Shape := ⟨3, ![1, 1024, 1024]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S16x1024x1024, .f32⟩
  | .hbm, ⟨2, _⟩ => ⟨S16, .i32⟩
  | .hbm, ⟨3, _⟩ => ⟨S65536x1024, .bf16⟩
  | .hbm, ⟨4, _⟩ => ⟨S16x1024x1024, .bf16⟩
  | .hbm, ⟨5, _⟩ => ⟨S65536x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x512, .bf16⟩
  | .local _ .vmem, ⟨5, _⟩ => ⟨S1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S1024x1024_o0_0_S1024x512 : S1024x1024.Slices ![0, 0] S1024x512
  slices_S1024x1024_o0_512_S1024x512 : S1024x1024.Slices ![0, 512] S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .bf16 = 32 ∨ (Rect.block (s := S65536x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .bf16 = 32 ∨ (Rect.block (s := S16x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .bf16 = 32 ∨ (Rect.block (s := S65536x512) S1024x512.size (cc0_transform_2 i) (hinb0_2 i)).WholeWords (EltTy.packing .bf16)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S16x1024x1024 : Shape := ⟨3, ![16, 1024, 1024]⟩
abbrev S16 : Shape := ⟨1, ![16]⟩
abbrev S16x4096x1024 : Shape := ⟨3, ![16, 4096, 1024]⟩
abbrev S65536x512 : Shape := ⟨2, ![65536, 512]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x1024x1024, .f32⟩
  | .hbm, ⟨2, _⟩ => ⟨S16, .i32⟩
  | .hbm, ⟨3, _⟩ => ⟨S16x4096x1024, .f32⟩
  | .hbm, ⟨4, _⟩ => ⟨S16x4096x1024, .f32⟩
  | .hbm, ⟨5, _⟩ => ⟨S65536x1024, .f32⟩
  | .hbm, ⟨6, _⟩ => ⟨S65536x512, .f32⟩
  | .hbm, ⟨7, _⟩ => ⟨S65536x512, .f32⟩
  | .hbm, ⟨8, _⟩ => ⟨S65536x512, .f32⟩
  | .hbm, ⟨9, _⟩ => ⟨S65536x512, .f32⟩
  | .hbm, ⟨10, _⟩ => ⟨S_, .f32⟩
  | .hbm, ⟨11, _⟩ => ⟨S65536x512, .f32⟩
  | .hbm, ⟨12, _⟩ => ⟨S65536x512, .f32⟩
  | .hbm, ⟨13, _⟩ => ⟨S_, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S65536x1024_S16x4096x1024 : S65536x1024.ShapeCasts S16x4096x1024
  shapeCasts_S16x4096x1024_S65536x1024 : S16x4096x1024.ShapeCasts S65536x1024
  slices_S65536x1024_S65536x512_0_0 : S65536x1024.Slices ![0, 0] S65536x512
  slices_S65536x1024_S65536x512_0_512 : S65536x1024.Slices ![0, 512] S65536x512
  bcast_S_S65536x512 : S_.BroadcastsInDim S65536x512 (![] : Fin 0 → Fin S65536x512.rank)
  bitsLt_bf16_f32 : FTy.bits .bf16 < FTy.bits .f32
  dot_S16x4096x1024_S16x1024x1024_S16x4096x1024_2_2_1_1_0_0_wf : DotDims.WF S16x4096x1024 S16x1024x1024 S16x4096x1024 [2] [2] [1] [1] [0] [0]

variable [Facts₀]

def dot_S16x4096x1024_S16x1024x1024_S16x4096x1024_2_2_1_1_0_0 : DotDims S16x4096x1024 S16x1024x1024 S16x4096x1024 where
  lhsContracting := [2]
  rhsContracting := [2]
  lhsNonContracting := [1]
  rhsNonContracting := [1]
  lhsBatch := [0]
  rhsBatch := [0]
  wf := dot_S16x4096x1024_S16x1024x1024_S16x4096x1024_2_2_1_1_0_0_wf

class Facts : Prop extends Facts₀ where

variable [Facts]
-- ==== Proof.GroupedSwiglu.lean ====
/-
  What both programs compute, as one function of the two argument arrays.

  The tokens are 65536 rows of 1024 features, in 16 consecutive groups of 4096 rows; group `g` has its own
  weight matrix `w[g]` of 1024 rows by 1024 features. Row `r` belongs to group `r / 4096`, and its projection
  onto weight row `j` is the inner product  `proj r j = ∑ k, x[r, k] · w[r / 4096, j, k]`.
  The first 512 projections of a row are its gate, the last 512 its up values, and the result at `(r, o)` is
  `gate · σ(gate) · up`  with  `gate = proj r o`,  `up = proj r (512 + o)`  and  `σ` the logistic function.

  On the extended reals the logistic function IS the quotient `1 / (1 + e^(-t))` (with the quotient's and the
  exponential's conventions at the infinities), so the one operation and its expansion into negate, exponential,
  add and divide denote the same value at every argument: `logistic_expanded`.
-/
import Idealize.ShloMosaic.PureOps.Ideal
import Idealize.ShloMosaic.PureOps.IdealRules
import Idealize.ShloMosaic.Lib.ValueIdx

noncomputable section

open scoped BigOperators

namespace Cert.GroupedSwiglu

open Idealize.ShloMosaic Idealize.ShloMosaic.ValueIdx

/-- The tokens' shape, the weights' and the result's. -/
abbrev STok : Shape := ⟨2, ![65536, 1024]⟩
abbrev SWgt : Shape := ⟨3, ![16, 1024, 1024]⟩
abbrev SRes : Shape := ⟨2, ![65536, 512]⟩

/-- The group a token row belongs to: 4096 consecutive rows per group. -/
def groupOf (r : Fin 65536) : Fin 16 := ⟨r.val / 4096, by have := r.isLt; omega⟩

/-- Column `o` of the gate half and of the up half of a row's 1024 projections. -/
def gateCol (o : Fin 512) : Fin 1024 := ⟨o.val, by have := o.isLt; omega⟩
def upCol (o : Fin 512) : Fin 1024 := ⟨512 + o.val, by have := o.isLt; omega⟩

/-- Row `r` of the tokens against row `j` of its group's weight matrix: the inner product over the 1024 features. -/
def proj (x : FVec Ideal STok .f32) (w : FVec Ideal SWgt .f32) (r : Fin 65536) (j : Fin 1024) : EReal :=
  ∑ k : Fin 1024, x (ix2 r k) * w (ix3 (groupOf r) j k)

/-- The gated product of a gate value and an up value. -/
def gated (g u : EReal) : EReal := g * Ideal.logistic g * u

/-- The result array: at `(r, o)` the gated product of row `r`'s projections `o` and `512 + o`. -/
def swiglu (x : FVec Ideal STok .f32) (w : FVec Ideal SWgt .f32) : SRes.Idx → EReal := fun i =>
  gated (proj x w (i 0) (gateCol (i 1))) (proj x w (i 0) (upCol (i 1)))

theorem swiglu_apply (x : FVec Ideal STok .f32) (w : FVec Ideal SWgt .f32) (r : Fin 65536) (o : Fin 512) :
    swiglu x w (ix2 r o) = gated (proj x w r (gateCol o)) (proj x w r (upCol o)) := rfl

/-- The f32 word of `1.0` denotes the extended real `1`. -/
theorem one_word : Ideal.ofBits .f32 0x3F800000#32 = 1 := IdealRules.sign_bit.ideal_onePat .f32

/-- The logistic function is its expansion `1 / (1 + e^(-t))`, at every extended real. -/
theorem logistic_expanded (t : EReal) : Ideal.div 1 (1 + Ideal.exp (-t)) = Ideal.logistic t := rfl

end Cert.GroupedSwiglu

end
-- ==== Proof.ReferenceValue.lean ====
/-
  The reference's result is the grouped gated product.

  The reference regroups the 65536 token rows as 16 groups of 4096, multiplies each group by its own weight matrix
  (contracting the 1024 features), lays the products back as 65536 rows of 1024 projections, and cuts each row into
  its gate half and its up half. Row `r` of the flat layout is row `r % 4096` of group `r / 4096`, so projection `j`
  of row `r` is the inner product of token row `r` with row `j` of group `r / 4096`'s weights (`projections_apply`).
  The reference writes the logistic function as `1 / (1 + e^(-gate))`, which is the logistic function itself on the
  extended reals; a change of float format is the identity there.
-/
import proofs.«164125_j24610162606479_1_alg».proof.Proof.Gen.ReferenceIdeal.Read
import proofs.«164125_j24610162606479_1_alg».proof.Proof.GroupedSwiglu

noncomputable section

open scoped BigOperators

namespace Cert.ReferenceIdeal.RefValue

open Cert.ReferenceIdeal Cert.ReferenceIdeal.Gen Cert.ReferenceIdeal.Read Cert.GroupedSwiglu
open Idealize.ShloMosaic Idealize.ShloMosaic.ValueIdx

/-- Projection `j` of flat row `r`, as the reference lays it out, is the inner product of token row `r` with row `j`
    of its group's weights: regrouping the rows and flattening them again are inverse re-indexings. -/
theorem projections_apply (x : FVec Ideal S65536x1024 .f32) (w : FVec Ideal S16x1024x1024 .f32) (r : Fin 65536) (j : Fin 1024) :
    val_main_v2 (F := Ideal) x w (ix2 r j) = proj x w r j := by
  rw [val_main_v2_apply, val_main_v1_apply]
  unfold proj
  refine Finset.sum_congr rfl fun k _ => ?_
  rw [val_main_v0_apply]
  have hr := r.isLt
  have hj := j.isLt
  have hk := k.isLt
  have e0 : idx_main_v0 (lidx_main_v1 (idx_main_v2 (ix2 r j)) k) = ix2 r k := funext fun a => Fin.ext (by
    match a with
    | ⟨0, _⟩ =>
      show (((r.val * 1024 + j.val) / 4194304 * 4096 + (r.val * 1024 + j.val) / 1024 % 4096) * 1024 + k.val) / 1024 = r.val
      omega
    | ⟨1, _⟩ =>
      show (((r.val * 1024 + j.val) / 4194304 * 4096 + (r.val * 1024 + j.val) / 1024 % 4096) * 1024 + k.val) % 1024 = k.val
      omega)
  have e1 : ridx_main_v1 (idx_main_v2 (ix2 r j)) k = ix3 (groupOf r) j k := funext fun a => Fin.ext (by
    match a with
    | ⟨0, _⟩ =>
      show (r.val * 1024 + j.val) / 4194304 = r.val / 4096
      omega
    | ⟨1, _⟩ =>
      show (r.val * 1024 + j.val) % 1024 = j.val
      omega
    | ⟨2, _⟩ => rfl)
  rw [e0, e1]

/-- The gate half reads column `o` of a row's projections, the up half column `512 + o`. -/
theorem gate_index (r : Fin 65536) (o : Fin 512) : idx_main_v3 (ix2 r o) = ix2 r (gateCol o) :=
  funext fun a => Fin.ext (by match a with | ⟨0, _⟩ => rfl | ⟨1, _⟩ => rfl)
theorem up_index (r : Fin 65536) (o : Fin 512) : idx_main_v4 (ix2 r o) = ix2 r (upCol o) :=
  funext fun a => Fin.ext (by match a with | ⟨0, _⟩ => rfl | ⟨1, _⟩ => rfl)

/-- The reference's result array is the grouped gated product of its two arguments. -/
theorem result_eq (x : FVec Ideal S65536x1024 .f32) (w : FVec Ideal S16x1024x1024 .f32) :
    val_main_v13 (F := Ideal) x w = swiglu x w := by
  funext i
  obtain ⟨r, o, rfl⟩ : ∃ (r : Fin 65536) (o : Fin 512), i = ix2 r o := ⟨i 0, i 1, eq_ix2 i⟩
  rw [swiglu_apply, val_main_v13_apply, val_main_v12_apply, val_main_v11_apply, val_main_v10_apply, val_main_v9_apply,
    val_main_cst_0_apply, val_main_v8_apply, val_main_v7_apply, val_main_cst_apply, val_main_v6_apply, val_main_v5_apply,
    val_main_v4_apply, val_main_v3_apply, gate_index, up_index, projections_apply, projections_apply]
  simp only [Ideal.truncf_def, Ideal.mulf_def, Ideal.hostDivf_def, Ideal.addf_def, Ideal.hostUnary_exp_def, Ideal.hostNegf_def,
    Ideal.negf_def, Ideal.ofBits_def, one_word, logistic_expanded]
  rfl

end Cert.ReferenceIdeal.RefValue

end
-- ==== Proof.BodyValue.lean ====
/-
  What one grid step of the kernel computes, entry by entry.

  A step holds a block `a` of 1024 token rows (1024 features each) and one group's weight matrix `b`, stored as a
  `[1, 1024, 1024]` block. It forms the 1024 × 1024 product that contracts the FEATURE axis of both,
  `y[p, j] = ∑ k, a[p, k] · b[0, j, k]`  (row `p` of the tokens against row `j` of the weights, accumulated from zero),
  takes columns `0 … 511` of `y` as the gate and columns `512 … 1023` as the up values, and stores
  `gate · σ(gate) · up`. So entry `(p, o)` of the stored block is the gated product of `y[p, o]` and `y[p, 512 + o]`.
-/
import proofs.«164125_j24610162606479_1_alg».proof.Proof.Gen.KernelIdeal.Skeleton
import proofs.«164125_j24610162606479_1_alg».proof.Proof.GroupedSwiglu
import Idealize.ShloMosaic.Lib.Pipeline.Value
import Idealize.ShloMosaic.Lib.ValueLayout
import Idealize.ShloMosaic.PureOps.Ideal.Laws

noncomputable section

open scoped BigOperators

namespace Cert.KernelIdeal.BodyValue

open Cert.KernelIdeal Cert.KernelIdeal.Gen Cert.GroupedSwiglu
open Idealize.ShloMosaic Idealize.ShloMosaic.ValueIdx

/-! ## The product's operand indices

The product keeps axis 0 of each operand and contracts axis 1 of each: at output index `(p, j)` and contraction
coordinate `k` the left operand is read at `(p, k)` and the right one at `(j, k)`. -/

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product accumulated from zero, at `(p, j)`: the inner product of row `p` of the left operand with row `j` of
    the right one. -/
theorem block_product_apply (a b : FVec Ideal S1024x1024 .bf16) (p j : Fin 1024) :
    matmul dot_S1024x1024_S1024x1024_S1024x1024_1_1_0_0_n_n none a b (constant S1024x1024 .f32 0x00000000#32) (ix2 p j)
      = ∑ k : Fin 1024, a (ix2 p k) * b (ix2 j k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p j) ((contrEquiv1 dot_S1024x1024_S1024x1024_S1024x1024_1_1_0_0_n_n 1024 rfl rfl).symm k) = ix2 p k := funext fun c => Fin.ext (by
    match c with
    | ⟨0, _⟩ => exact lhs_axis0 _ _
    | ⟨1, _⟩ => exact (lhs_axis1 _ _).trans hk)
  have er : dot_S1024x1024_S1024x1024_S1024x1024_1_1_0_0_n_n.rhsIdx (ix2 p j) ((contrEquiv1 dot_S1024x1024_S1024x1024_S1024x1024_1_1_0_0_n_n 1024 rfl rfl).symm k) = ix2 j k := funext fun c => Fin.ext (by
    match c with
    | ⟨0, _⟩ => exact rhs_axis0 _ _
    | ⟨1, _⟩ => exact (rhs_axis1 _ _).trans hk)
  rw [el, er]

/-! ## The layout steps around the product -/

/-- The token block is cast to its own shape: nothing moves. -/
theorem token_cast (a : FVec Ideal S1024x1024 .bf16) : shapeCast S1024x1024 a shapeCasts_S1024x1024_S1024x1024 = a :=
  shapeCast_self a _

/-- The weight block loses its leading unit axis: entry `(j, k)` is the block's `(0, j, k)`. -/
theorem weight_cast_apply (b : FVec Ideal S1x1024x1024 .bf16) (j k : Fin 1024) :
    shapeCast S1024x1024 b shapeCasts_S1x1024x1024_S1024x1024 (ix2 j k) = b (ix3 (0 : Fin 1) j k) :=
  shapeCast_1ab_ab_apply b _ j k

/-- The gate half of the product is its columns `0 … 511`, the up half its columns `512 … 1023`. -/
theorem gate_half_apply (y : FVec Ideal S1024x1024 .f32) (p : Fin 1024) (o : Fin 512) :
    extractStridedSlice S1024x512 ![0, 0] y slices_S1024x1024_o0_0_S1024x512 (ix2 p o) = y (ix2 p (gateCol o)) :=
  slice2_axis1_apply 0 y _ p o (gateCol o) (Nat.zero_add _).symm
theorem up_half_apply (y : FVec Ideal S1024x1024 .f32) (p : Fin 1024) (o : Fin 512) :
    extractStridedSlice S1024x512 ![0, 512] y slices_S1024x1024_o0_512_S1024x512 (ix2 p o) = y (ix2 p (upCol o)) :=
  slice2_axis1_apply 512 y _ p o (upCol o) rfl

/-- The epilogue on any product `y`: entry `(p, o)` is the gated product of `y[p, o]` and `y[p, 512 + o]` (the multiplications
    and the logistic function act entry by entry, and the narrowing to bf16 is the identity on the extended reals). -/
theorem epilogue_apply (y : FVec Ideal S1024x1024 .f32) (p : Fin 1024) (o : Fin 512) :
    truncf .bf16 (mulf (mulf (extractStridedSlice S1024x512 ![0, 0] y slices_S1024x1024_o0_0_S1024x512)
        (logistic (extractStridedSlice S1024x512 ![0, 0] y slices_S1024x1024_o0_0_S1024x512)))
        (extractStridedSlice S1024x512 ![0, 512] y slices_S1024x1024_o0_512_S1024x512)) bitsLt_bf16_f32 (ix2 p o)
      = gated (y (ix2 p (gateCol o))) (y (ix2 p (upCol o))) := by
  show gated (extractStridedSlice S1024x512 ![0, 0] y slices_S1024x1024_o0_0_S1024x512 (ix2 p o))
      (extractStridedSlice S1024x512 ![0, 512] y slices_S1024x1024_o0_512_S1024x512 (ix2 p o)) = _
  rw [gate_half_apply, up_half_apply]

/-! ## The stored block -/

/-- Entry `(p, o)` of what a step stores: the gated product of the inner products of token row `p` with weight rows `o`
    and `512 + o` of the step's group. -/
theorem payload_apply (x0 : Vec Ideal S1024x1024 .bf16) (x1 : Vec Ideal S1x1024x1024 .bf16) (p : Fin 1024) (o : Fin 512) :
    k0_pay1 x0 x1 (ix2 p o)
      = gated (∑ k : Fin 1024, x0 (ix2 p k) * x1 (ix3 (0 : Fin 1) (gateCol o) k))
          (∑ k : Fin 1024, x0 (ix2 p k) * x1 (ix3 (0 : Fin 1) (upCol o) k)) := by
  unfold k0_pay1
  refine (epilogue_apply _ p o).trans ?_
  rw [block_product_apply, block_product_apply, token_cast]
  simp only [weight_cast_apply]

end Cert.KernelIdeal.BodyValue

end
-- ==== Proof.ArrayValue.lean ====
/-
  From the blocks each grid step stores to the whole result array.

  The grid has 16 × 4 steps. Step `(g, s)` stages token rows `1024·(4g + s) … 1024·(4g + s) + 1023` (all 1024 features),
  the whole weight matrix of group `g`, and writes result rows `1024·(4g + s) …` (all 512 columns). Writing `b = 4g + s`
  for the row block, the group is `b / 4`, and token row `1024·b + p` indeed belongs to group `(1024·b + p) / 4096 = b / 4`:
  so what a step stores at `(p, o)` is the grouped gated product at `(1024·b + p, o)` (`step_entry`, `flushed_eq`).
  The 64 row blocks tile the 65536 rows (`covered`), hence the array ends holding the grouped gated product everywhere.

  Before the kernel runs, both arguments are narrowed to bf16; on the extended reals that is the identity, so the arrays
  the kernel stages are the arguments themselves (`staged_tokens`, `staged_weights`).
-/
import proofs.«164125_j24610162606479_1_alg».proof.Proof.Gen.KernelIdeal.Frame
import proofs.«164125_j24610162606479_1_alg».proof.Proof.Gen.KernelIdeal.Value
import proofs.«164125_j24610162606479_1_alg».proof.Proof.BodyValue
import Idealize.ShloMosaic.Lib.Pipeline.Value
import Idealize.ShloMosaic.Lib.StableHlo.Run
import Idealize.ShloMosaic.Lib.Tactic

noncomputable section

open scoped BigOperators

namespace Cert.KernelIdeal.ArrayValue

open Cert.KernelIdeal Cert.KernelIdeal.Gen Cert.KernelIdeal.Value Cert.KernelIdeal.BodyValue Cert.GroupedSwiglu
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The two float arguments as launched. -/
abbrev tokens (c : Dev nD) : FVec Ideal S65536x1024 .f32 := m ((c : Thread nD τ).loc main_arg0)
abbrev weights (c : Dev nD) : FVec Ideal S16x1024x1024 .f32 := m ((c : Thread nD τ).loc main_arg1)

/-! ## The arrays the kernel stages are the arguments -/

theorem staged_tokens (c : Dev nD) : (V m c main_v0 : S65536x1024.Idx → EReal) = tokens m c := by
  dsimp only [V, hostOps0]; after_results; rfl

theorem staged_weights (c : Dev nD) : (V m c main_v1 : S16x1024x1024.Idx → EReal) = weights m c := by
  dsimp only [V, hostOps0]; after_results; rfl

/-! ## One step's stored block, entry by entry -/

/-- If a step's token block is rows `1024·b …` of `X` and its weight block is group `b / 4` of `W`, then what it stores at
    `(p, o)` is the grouped gated product of `X` and `W` at `(1024·b + p, o)`: row `1024·b + p` lies in group `b / 4`. -/
theorem step_entry (X : FVec Ideal S65536x1024 .f32) (W : FVec Ideal S16x1024x1024 .f32)
    (x0 : Vec Ideal S1024x1024 .bf16) (x1 : Vec Ideal S1x1024x1024 .bf16) (b : Nat) (hb : b ≤ 63)
    (h0 : ∀ (p k : Fin 1024), x0 (ix2 p k) = X (ix2 ⟨b * 1024 + p.val, by have := p.isLt; omega⟩ k))
    (h1 : ∀ (j k : Fin 1024), x1 (ix3 (0 : Fin 1) j k) = W (ix3 ⟨b / 4, by omega⟩ j k))
    (p : Fin 1024) (o : Fin 512) :
    k0_pay1 x0 x1 (ix2 p o) = swiglu X W (ix2 ⟨b * 1024 + p.val, by have := p.isLt; omega⟩ o) := by
  rw [payload_apply, swiglu_apply]
  have hp := p.isLt
  have hg : groupOf ⟨b * 1024 + p.val, by omega⟩ = ⟨b / 4, by omega⟩ :=
    Fin.ext (by show (b * 1024 + p.val) / 4096 = b / 4; omega)
  unfold proj
  rw [hg]
  simp only [h0, h1]

/-! ## The index maps over the grid -/

/-- Decided over the 64 steps: the result's row block `b` is at most 63 and its column block is 0; the tokens' block is
    row block `b`, all features; the weights' block is group `b / 4`, whole. -/
theorem index_facts : ∀ t : Fin cfg0.N,
    win0_2.index t (1 : Fin 2) = 0 ∧ win0_2.index t (0 : Fin 2) ≤ 63
    ∧ win0_0.index t (0 : Fin 2) = win0_2.index t (0 : Fin 2) ∧ win0_0.index t (1 : Fin 2) = 0
    ∧ win0_1.index t (0 : Fin 3) = win0_2.index t (0 : Fin 2) / 4 ∧ win0_1.index t (1 : Fin 3) = 0
    ∧ win0_1.index t (2 : Fin 3) = 0 :=
  (by decide +kernel : ∀ t : Fin grid0.N, _)

/-- Every one of the 64 row blocks is some step's. -/
theorem index_onto : ∀ q : Fin 64, ∃ t : Fin cfg0.N, win0_2.index t = ![q.val, 0] :=
  (by decide +kernel : ∀ q : Fin 64, ∃ t : Fin grid0.N, win0_2.index t = ![q.val, 0])

theorem hz2 : (![0, 0] : Fin 2 → Nat) = fun _ => 0 := funext fun a => by fin_cases a <;> rfl
theorem hz3 : (![0, 0, 0] : Fin 3 → Nat) = fun _ => 0 := funext fun a => by fin_cases a <;> rfl

/-! ## What a step writes back is its block of the grouped gated product -/

theorem flushed_eq (c : Dev nD) (t : Fin cfg0.N) :
    (dats m 0 c).flushed 2 t = ((cfg0.win 2).blk t).view.read (Elt Ideal) (swiglu (tokens m c) (weights m c)) := by
  rw [flushed2]
  unfold out0_2
  rw [View.canon_unit_zero hz2]
  simp only [View.ld_unit_zero (S := S1024x1024) hz2, View.ld_unit_zero (S := S1x1024x1024) hz3]
  obtain ⟨f0, f1, f2, f3, f4, f5, f6⟩ := index_facts t
  funext j
  obtain ⟨p, o, rfl⟩ : ∃ (p : Fin 1024) (o : Fin 512), j = ix2 p o := ⟨j 0, j 1, eq_ix2 j⟩
  have hp := p.isLt
  have ho := o.isLt
  have hemb : ((cfg0.win 2).blk t).view.emb (ix2 p o) = ix2 ⟨win0_2.index t (0 : Fin 2) * 1024 + p.val, by omega⟩ o := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 512 + 1 * o.val = o.val; omega
  show k0_pay1 (iblk m c 0 t) (iblk m c 1 t) (ix2 p o)
    = swiglu (tokens m c) (weights m c) (((cfg0.win 2).blk t).view.emb (ix2 p o))
  rw [hemb]
  refine step_entry (tokens m c) (weights m c) (iblk m c 0 t) (iblk m c 1 t) (win0_2.index t (0 : Fin 2)) f1 ?_ ?_ p o
  · intro p' k
    have hp' := p'.isLt
    have hk := k.isLt
    show V m c main_v0 (((cfg0.win 0).blk t).view.emb (ix2 p' k)) = _
    refine (congrFun (staged_tokens m c) _).trans (congrArg (tokens m c) (funext fun a => Fin.ext ?_))
    match a with
    | ⟨0, _⟩ => show win0_0.index t (0 : Fin 2) * 1024 + 1 * p'.val = win0_2.index t (0 : Fin 2) * 1024 + p'.val; omega
    | ⟨1, _⟩ => show win0_0.index t (1 : Fin 2) * 1024 + 1 * k.val = k.val; omega
  · intro j' k
    have hj' := j'.isLt
    have hk := k.isLt
    show V m c main_v1 (((cfg0.win 1).blk t).view.emb (ix3 (0 : Fin 1) j' k)) = _
    refine (congrFun (staged_weights m c) _).trans (congrArg (weights m c) (funext fun a => Fin.ext ?_))
    match a with
    | ⟨0, _⟩ => show win0_1.index t (0 : Fin 3) * 1 + 1 * 0 = win0_2.index t (0 : Fin 2) / 4; omega
    | ⟨1, _⟩ => show win0_1.index t (1 : Fin 3) * 1024 + 1 * j'.val = j'.val; omega
    | ⟨2, _⟩ => show win0_1.index t (2 : Fin 3) * 1024 + 1 * k.val = k.val; omega

/-! ## The 64 row blocks tile the result -/

/-- An index of the result is in a step's block iff each coordinate is in the block's range on its axis. -/
theorem mem_block (t : Fin cfg0.N) (i : S65536x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2).slice (win0_2.rect t)).set ↔ _
  rw [View.set_slice_whole, Rect.mem_set_unit]
  exact Iff.rfl

/-- Row `r` of the result is written by the step whose row block is `r / 1024`. -/
theorem covered (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  obtain ⟨t, ht⟩ := index_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-! ## The result array, and the run -/

/-- After the last step the result array holds the grouped gated product of the two arguments. -/
theorem final (c : Dev nD) : (dats m 0 c).arrAt 2 cfg0.N = swiglu (tokens m c) (weights m c) :=
  (dats m 0 c).arrAt_eq_of_cover 2 (swiglu (tokens m c) (weights m c)) (fun t _ => flushed_eq m c t) covered

/-- Every weakly fair execution of the idealized kernel terminates with the result array at the grouped gated product of
    the arguments, and the arguments unchanged. -/
theorem run : θ_run defs (onTc (τ := τ) (main (F := Ideal))) ⟨m, fun _ => 0, ρ⟩ fun r => ∀ c : Dev nD,
      r.2.mem ((c : Thread nD τ).loc main_v2) = swiglu (tokens m c) (weights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.lean ====
/-
  A grouped projection with a gated epilogue, against its plain jnp form.

  Both programs take 65536 token rows of 1024 features, in 16 consecutive groups of 4096 rows, and one 1024 × 1024 weight
  matrix per group, and return, for row `r` and column `o < 512`,
      gate · σ(gate) · up,   gate = ∑ k, x[r, k] · w[r / 4096, o, k],   up = ∑ k, x[r, k] · w[r / 4096, 512 + o, k],
  with `σ` the logistic function (Proof/GroupedSwiglu.lean states this function once).

  The kernel walks a 16 × 4 grid; each step multiplies a block of 1024 rows by its group's matrix, contracting the
  feature axis of both, and applies the epilogue to the two halves of the product's columns (Proof/BodyValue.lean: one
  step's stored block entry by entry; Proof/ArrayValue.lean: the 64 row blocks tile the result, and row `1024·b + p`
  lies in group `b / 4`, the group step `b` stages). The reference regroups the rows, takes one batched product,
  flattens it back and writes the logistic function as `1 / (1 + e^(-gate))` (Proof/ReferenceValue.lean).

  On the extended reals a change of float format is the identity, both products are the same sums over the feature
  axis in the same order, and the logistic function IS that quotient at every argument; so the two results agree
  entry by entry with no appeal to finiteness, and the precondition is never opened. The idealization rewrote no
  operation of the kernel, so there is nothing to preserve. The three programs run without fault and leave their
  arguments unchanged: the kernels' runs are the generated frames, the reference's is its generated run.
-/
import proofs.«164125_j24610162606479_1_alg».proof.Defs
import proofs.«164125_j24610162606479_1_alg».proof.Proof.Gen.Kernel
import proofs.«164125_j24610162606479_1_alg».proof.Proof.Gen.Kernel.Skeleton
import proofs.«164125_j24610162606479_1_alg».proof.Proof.Gen.Kernel.Launch
import proofs.«164125_j24610162606479_1_alg».proof.Proof.Gen.Kernel.Points
import proofs.«164125_j24610162606479_1_alg».proof.Proof.Gen.Kernel.Frame
import proofs.«164125_j24610162606479_1_alg».proof.Proof.Gen.KernelIdeal
import proofs.«164125_j24610162606479_1_alg».proof.Proof.Gen.KernelIdeal.Skeleton
import proofs.«164125_j24610162606479_1_alg».proof.Proof.Gen.KernelIdeal.Launch
import proofs.«164125_j24610162606479_1_alg».proof.Proof.Gen.KernelIdeal.Points
import proofs.«164125_j24610162606479_1_alg».proof.Proof.Gen.KernelIdeal.Frame
import proofs.«164125_j24610162606479_1_alg».proof.Proof.Gen.ReferenceIdeal
import proofs.«164125_j24610162606479_1_alg».proof.Proof.Gen.Pre_finite_inputs
import proofs.«164125_j24610162606479_1_alg».proof.Proof.Gen.KernelIdeal.Value
import proofs.«164125_j24610162606479_1_alg».proof.Proof.Gen.ReferenceIdeal.Run
import proofs.«164125_j24610162606479_1_alg».proof.Proof.Gen.ReferenceIdeal.Read
import proofs.«164125_j24610162606479_1_alg».proof.Proof.GroupedSwiglu
import proofs.«164125_j24610162606479_1_alg».proof.Proof.ReferenceValue
import proofs.«164125_j24610162606479_1_alg».proof.Proof.BodyValue
import proofs.«164125_j24610162606479_1_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's run, with the value of its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories that agree on the arguments, the kernel's result array and the reference's both end at the grouped
    gated product of the two float arguments. -/
theorem algebraic : Cert.algebraic_KernelIdeal_ReferenceIdeal := by
  intro m ρ m' ρ' _ hagree
  refine ⟨fun c => Cert.GroupedSwiglu.swiglu (Cert.KernelIdeal.ArrayValue.tokens m c) (Cert.KernelIdeal.ArrayValue.weights m c),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
